-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024 .f32) (main_arg5 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.Spec.lean ====
/-
  The function both programs compute, row by row, on the extended reals.

  For one row `xr` of the activations: the linear layer `z o = (∑ k, xr k * w o k) + b o`; then the layer
  normalisation of `z` over its 1024 features with the biased variance taken as the mean of squares minus the
  squared mean, `(z q - μ) * rsqrt (ν - μ * μ + ε) * g q + β q` where `μ = (∑ o, z o) / 1024` and
  `ν = (∑ o, z o * z o) / 1024`; then the residual row added and multiplied in, `(· + yr q) * yr q`.
  The divisor 1024 and `ε` are kept as the f32 words both programs print; neither is ever evaluated.
-/
import Idealize.ShloMosaic.PureOps.Ideal
import Idealize.ShloMosaic.Lib.ValueIdx

noncomputable section

namespace Cert.LinearNorm

open Idealize.ShloMosaic Idealize.ShloMosaic.ValueIdx

/-- The divisor of both means: the f32 word of 1024. -/
abbrev nFeat : EReal := Ideal.ofBits .f32 0x44800000#32

/-- The variance's offset: the f32 word nearest to 1e-5. -/
abbrev eps : EReal := Ideal.ofBits .f32 0x3727C5AC#32

/-- One row of the linear layer: feature `o` is the row's product with row `o` of the weight, plus the bias. -/
def lin (xr : Fin 1024 → EReal) (w : Fin 1024 → Fin 1024 → EReal) (b : Fin 1024 → EReal) (o : Fin 1024) : EReal :=
  (∑ k : Fin 1024, xr k * w o k) + b o

/-- The mean of a row's features. -/
def mean (z : Fin 1024 → EReal) : EReal := Ideal.div (∑ o : Fin 1024, z o) nFeat

/-- The mean of the squares of a row's features. -/
def meanSq (z : Fin 1024 → EReal) : EReal := Ideal.div (∑ o : Fin 1024, z o * z o) nFeat

/-- The reciprocal standard deviation of a row, the variance taken as `meanSq - mean * mean`. -/
def invStd (z : Fin 1024 → EReal) : EReal := Ideal.rsqrt (meanSq z - mean z * mean z + eps)

/-- One row normalised, scaled and shifted, with the residual row added and then multiplied in. -/
def norm (z g β yr : Fin 1024 → EReal) (q : Fin 1024) : EReal :=
  ((z q - mean z) * invStd z * g q + β q + yr q) * yr q

/-- The whole result: entry `(r, q)` is `norm` of the linear layer of row `r` of `x`, with row `r` of `y`. -/
def G (x y : FVec Ideal ⟨2, ![16384, 1024]⟩ .f32) (w : FVec Ideal ⟨2, ![1024, 1024]⟩ .f32)
    (b g β : FVec Ideal ⟨1, ![1024]⟩ .f32) : FVec Ideal ⟨2, ![16384, 1024]⟩ .f32 := fun i =>
  norm (lin (fun k => x (ix2 (i 0) k)) (fun o k => w (ix2 o k)) (fun o => b (ix1 o)))
    (fun o => g (ix1 o)) (fun o => β (ix1 o)) (fun o => y (ix2 (i 0) o)) (i 1)

end Cert.LinearNorm

end
-- ==== Proof.Body.lean ====
/-
  The kernel body's one stored value, read at an entry `(p, q)` of its block, is the row function of `Spec.lean`
  applied to row `p` of the activation block, the whole weight, the three parameter rows and row `p` of the
  residual block. The product into a zero accumulator is the plain sum over the contracted axis; a lane sum with
  the zero word as its start is the plain sum over the row; the column forms (`[512] → [512, 1]`,
  `[512, 1] → [512, 1024]`) and the row form (`[1, 1024] → [512, 1024]`) of the broadcasts each read one entry.
-/
import proofs.«404553_j32607391711515_3_alg».proof.Proof.Gen.KernelIdeal.Skeleton
import proofs.«404553_j32607391711515_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.LinearNorm.Body

open Cert.KernelIdeal Cert.KernelIdeal.Gen
open Idealize.ShloMosaic Idealize.ShloMosaic.TcCoe Idealize.ShloMosaic.ValueIdx
open Cert.LinearNorm

/-! ## The product's operand indices -/

theorem lhs_dot_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_dot_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_dot_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_dot_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The block's product with the weight, into the zero accumulator, at `(p, o)`: row `p` against row `o`. -/
theorem matmul_at (v0 : FVec Ideal S512x1024 .f32) (v1 : FVec Ideal S1024x1024 .f32) (p : Fin 512) (o : Fin 1024) :
    matmul dot_S512x1024_S1024x1024_S512x1024_1_1_0_0_n_n (some .fp32) v0 v1 (constant (F := Ideal) S512x1024 .f32 0x00000000#32) (ix2 p o)
      = ∑ k : Fin 1024, v0 (ix2 p k) * v1 (ix2 o k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p o) ((ValueIdx.contrEquiv1 dot_S512x1024_S1024x1024_S512x1024_1_1_0_0_n_n 1024 rfl rfl).symm k) = ix2 p k := funext fun a => Fin.ext (by
    match a with
    | ⟨0, _⟩ => exact lhs_dot_0 _ _
    | ⟨1, _⟩ => exact (lhs_dot_1 _ _).trans hk)
  have er : dot_S512x1024_S1024x1024_S512x1024_1_1_0_0_n_n.rhsIdx (ix2 p o) ((ValueIdx.contrEquiv1 dot_S512x1024_S1024x1024_S512x1024_1_1_0_0_n_n 1024 rfl rfl).symm k) = ix2 o k := funext fun a => Fin.ext (by
    match a with
    | ⟨0, _⟩ => exact rhs_dot_0 _ _
    | ⟨1, _⟩ => exact (rhs_dot_1 _ _).trans hk)
  rw [el, er]

/-! ## The broadcasts and the lane sum -/

/-- A `[1, 1024]` row, cast to its own shape and broadcast over 512 rows, reads its entry `o` at `(p, o)`. -/
theorem rowBcast_at (v : FVec Ideal S1x1024 .f32) (p : Fin 512) (o : Fin 1024) :
    broadcastTo S512x1024 (shapeCast S1x1024 v shapeCasts_S1x1024_S1x1024) broadcasts_S1x1024_S512x1024 (ix2 p o)
      = v (ix2 (0 : Fin 1) o) := by
  rw [shapeCast_self, broadcastTo_1b_ab_apply]

/-- The lane sum of a `[512, 1024]` value from the zero word, at row `p`: the row added up. -/
theorem rowSum_at (src : FVec Ideal S512x1024 .f32) (hφ : FKind.Formats .f32)
    (hacc : (0x00000000#32 : BitVec 32) = 0x00000000#32) (p : Fin 512) :
    multiReduction .add [1] S512 src 0x00000000#32 reduces_S512x1024_S512 hφ hacc (ix1 p)
      = ∑ o : Fin 1024, src (ix2 p o) :=
  (Ideal.multiReduction_add_single src 0x00000000#32 reduces_S512x1024_S512 hφ hacc (ix1 p)).trans
    (Finset.sum_congr rfl fun k _ => congrArg src (funext fun a => Fin.ext (by
      match a with
      | ⟨0, _⟩ => rfl
      | ⟨1, _⟩ => rfl)))

/-- The reciprocal square root of a column, entry by entry. -/
theorem rsqrt_at (v : FVec Ideal S512x1 .f32) (i : S512x1.Idx) : rsqrt v i = Ideal.rsqrt (v i) := rfl

/-- A `[512]` vector viewed as a column reads its entry `p` at `(p, u)`. -/
theorem col_at (v : FVec Ideal S512 .f32) (p : Fin 512) (u : Fin 1) :
    shapeCast S512x1 v shapeCasts_S512_S512x1 (ix2 p u) = v (ix1 p) :=
  shapeCast_apply v shapeCasts_S512_S512x1 _ _ (by
    have hu : u.val = 0 := by omega
    rw [Shape.rowMajor_val_two, Shape.rowMajor_val_one]
    show p.val = p.val * 1 + u.val
    rw [hu, Nat.mul_one, Nat.add_zero])

/-- A column broadcast over 1024 lanes reads its entry `p` at `(p, o)`. -/
theorem colBcast_at (v : FVec Ideal S512x1 .f32) (p : Fin 512) (o : Fin 1024) :
    broadcastTo S512x1024 v broadcasts_S512x1_S512x1024 (ix2 p o) = v (ix2 p (0 : Fin 1)) := by
  refine broadcastTo_apply v broadcasts_S512x1_S512x1024 (ix2 p o) (ix2 p (0 : Fin 1)) fun ax => ?_
  match ax with
  | ⟨0, _⟩ =>
    show p.val = if (512 : Nat) = 1 then 0 else p.val
    rw [if_neg (by decide)]
  | ⟨1, _⟩ =>
    show 0 = if (1 : Nat) = 1 then 0 else o.val
    rw [if_pos rfl]

/-! ## The stored value -/

/-- What the body stores, at `(p, q)`. -/
theorem pay_at (v0 : Vec Ideal S512x1024 .f32) (v1 : Vec Ideal S1024x1024 .f32) (v3 v25 v29 : Vec Ideal S1x1024 .f32)
    (v33 : Vec Ideal S512x1024 .f32) (p : Fin 512) (q : Fin 1024) :
    k0_pay1 (F := Ideal) v0 v1 v3 v25 v29 v33 (ix2 p q)
      = norm (lin (fun k => v0 (ix2 p k)) (fun o k => v1 (ix2 o k)) (fun o => v3 (ix2 (0 : Fin 1) o)))
          (fun o => v25 (ix2 (0 : Fin 1) o)) (fun o => v29 (ix2 (0 : Fin 1) o)) (fun o => v33 (ix2 p o)) q := by
  unfold k0_pay1
  simp only [mulf_apply, addf_apply, subf_apply, divf_apply, broadcast_apply, rsqrt_at, colBcast_at, col_at, rowSum_at, rowBcast_at, matmul_at]
  rw [rowSum_at, rowSum_at]
  simp only [mulf_apply, addf_apply, rowBcast_at, matmul_at]
  rfl

end Cert.LinearNorm.Body

end
-- ==== Proof.Blocks.lean ====
/-
  From blocks to the array. Grid point `t` (of 32) works on rows `512 t … 512 t + 511`: its activation and
  residual blocks are those rows of the two big arguments, the weight and the three parameter rows are whole at
  every point, and what it writes back is those rows of the result. So entry `(p, q)` of the block written at
  point `t` is the row function of row `512 t + p`, which is entry `(512 t + p, q)` of `G`; the 32 blocks cover the
  result's rows, so the result array ends holding `G` of the six arguments.
-/
import proofs.«404553_j32607391711515_3_alg».proof.Proof.Gen.KernelIdeal.Value
import proofs.«404553_j32607391711515_3_alg».proof.Proof.Body
import proofs.«404553_j32607391711515_3_alg».proof.Proof.Spec
import Idealize.ShloMosaic.Lib.Pipeline.Value
import Idealize.ShloMosaic.Lib.StableHlo.Run
import Idealize.ShloMosaic.Lib.ValueLayout

noncomputable section

namespace Cert.LinearNorm.Blocks

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.LinearNorm

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 points -/

/-- The two row-blocked inputs and the output sit at block row `t`; every other block index is `0`. -/
theorem idx_facts : ∀ t : Fin cfg0.N, t.val < 32
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the block of point `t` is row `512 t + p` of the array. -/
def rowOf (t : Fin cfg0.N) (p : Fin 512) : Fin 16384 :=
  ⟨512 * t.val + p.val, by have := (idx_facts t).1; have := p.isLt; omega⟩

/-! ## The host reshapes before the region -/

/-- The bias as the region finds it: the `[1024]` argument viewed `[1, 1024]`. -/
theorem V_bias (c : Dev nD) : (V m c main_v0 : S1x1024.Idx → EReal)
    = shapeCast S1x1024 (m ((c : Thread nD τ).loc main_arg3)) shapeCasts_S1024_S1x1024 := by
  dsimp only [V, hostOps0]; after_results; rfl
/-- The scale likewise. -/
theorem V_gamma (c : Dev nD) : (V m c main_v1 : S1x1024.Idx → EReal)
    = shapeCast S1x1024 (m ((c : Thread nD τ).loc main_arg4)) shapeCasts_S1024_S1x1024 := by
  dsimp only [V, hostOps0]; after_results; rfl
/-- The shift likewise. -/
theorem V_beta (c : Dev nD) : (V m c main_v2 : S1x1024.Idx → EReal)
    = shapeCast S1x1024 (m ((c : Thread nD τ).loc main_arg5)) shapeCasts_S1024_S1x1024 := by
  dsimp only [V, hostOps0]; after_results; rfl

/-! ## Each input block read at an entry -/

/-- The activation block of point `t` at `(p, k)`: the first argument at row `512 t + p`. -/
theorem x_at (c : Dev nD) (t : Fin cfg0.N) (p : Fin 512) (k : Fin 1024) :
    (iblk m c 0 t : Vec Ideal S512x1024 .f32) (ix2 p k)
      = (m ((c : Thread nD τ).loc main_arg0) : S16384x1024.Idx → EReal) (ix2 (rowOf t p) k) := by
  obtain ⟨ht, e00, e01, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * k.val = k.val; omega

/-- The residual block of point `t` at `(p, o)`: the second argument at row `512 t + p`. -/
theorem y_at (c : Dev nD) (t : Fin cfg0.N) (p : Fin 512) (o : Fin 1024) :
    (iblk m c 1 t : Vec Ideal S512x1024 .f32) (ix2 p o)
      = (m ((c : Thread nD τ).loc main_arg1) : S16384x1024.Idx → EReal) (ix2 (rowOf t p) o) := by
  obtain ⟨ht, -, -, e10, e11, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 1024 + 1 * o.val = o.val; omega

/-- The weight block is the whole weight at every point. -/
theorem w_at (c : Dev nD) (t : Fin cfg0.N) (o k : Fin 1024) :
    (iblk m c 2 t : Vec Ideal S1024x1024 .f32) (ix2 o k)
      = (m ((c : Thread nD τ).loc main_arg2) : S1024x1024.Idx → EReal) (ix2 o k) := by
  obtain ⟨ht, -, -, -, -, e20, e21, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 1024 + 1 * o.val = o.val; omega
  | ⟨1, _⟩ => show win0_2.index t (1 : Fin 2) * 1024 + 1 * k.val = k.val; omega

/-- The bias block's one row is the bias argument. -/
theorem bias_at (c : Dev nD) (t : Fin cfg0.N) (o : Fin 1024) :
    (iblk m c 3 t : Vec Ideal S1x1024 .f32) (ix2 (0 : Fin 1) o)
      = (m ((c : Thread nD τ).loc main_arg3) : S1024.Idx → EReal) (ix1 o) := by
  obtain ⟨ht, -, -, -, -, -, -, e30, e31, -⟩ := idx_facts t
  unfold iblk
  rw [View.read_apply]
  show V m c main_v0 _ = _
  rw [V_bias]
  refine Eq.trans (congrArg _ (funext fun a => Fin.ext ?_)) (shapeCast_a_1a_apply _ shapeCasts_S1024_S1x1024 (0 : Fin 1) o)
  match a with
  | ⟨0, _⟩ => show win0_3.index t (0 : Fin 2) * 1 + 1 * 0 = 0; omega
  | ⟨1, _⟩ => show win0_3.index t (1 : Fin 2) * 1024 + 1 * o.val = o.val; omega

/-- The scale block's one row is the scale argument. -/
theorem gamma_at (c : Dev nD) (t : Fin cfg0.N) (o : Fin 1024) :
    (iblk m c 4 t : Vec Ideal S1x1024 .f32) (ix2 (0 : Fin 1) o)
      = (m ((c : Thread nD τ).loc main_arg4) : S1024.Idx → EReal) (ix1 o) := by
  obtain ⟨ht, -, -, -, -, -, -, -, -, e40, e41, -⟩ := idx_facts t
  unfold iblk
  rw [View.read_apply]
  show V m c main_v1 _ = _
  rw [V_gamma]
  refine Eq.trans (congrArg _ (funext fun a => Fin.ext ?_)) (shapeCast_a_1a_apply _ shapeCasts_S1024_S1x1024 (0 : Fin 1) o)
  match a with
  | ⟨0, _⟩ => show win0_4.index t (0 : Fin 2) * 1 + 1 * 0 = 0; omega
  | ⟨1, _⟩ => show win0_4.index t (1 : Fin 2) * 1024 + 1 * o.val = o.val; omega

/-- The shift block's one row is the shift argument. -/
theorem beta_at (c : Dev nD) (t : Fin cfg0.N) (o : Fin 1024) :
    (iblk m c 5 t : Vec Ideal S1x1024 .f32) (ix2 (0 : Fin 1) o)
      = (m ((c : Thread nD τ).loc main_arg5) : S1024.Idx → EReal) (ix1 o) := by
  obtain ⟨ht, -, -, -, -, -, -, -, -, -, -, e50, e51, -⟩ := idx_facts t
  unfold iblk
  rw [View.read_apply]
  show V m c main_v2 _ = _
  rw [V_beta]
  refine Eq.trans (congrArg _ (funext fun a => Fin.ext ?_)) (shapeCast_a_1a_apply _ shapeCasts_S1024_S1x1024 (0 : Fin 1) o)
  match a with
  | ⟨0, _⟩ => show win0_5.index t (0 : Fin 2) * 1 + 1 * 0 = 0; omega
  | ⟨1, _⟩ => show win0_5.index t (1 : Fin 2) * 1024 + 1 * o.val = o.val; omega

/-- Entry `(p, q)` of the output block of point `t` is entry `(512 t + p, q)` of the result array. -/
theorem out_emb (t : Fin cfg0.N) (p : Fin 512) (q : Fin 1024) :
    ((cfg0.win 6).blk t).view.emb (ix2 p q) = (ix2 (rowOf t p) q : S16384x1024.Idx) := by
  have h := idx_facts t
  obtain ⟨ht, e60, e61⟩ : t.val < 32 ∧ win0_6.index t (0 : Fin 2) = t.val ∧ win0_6.index t (1 : Fin 2) = 0 :=
    ⟨h.1, h.2.2.2.2.2.2.2.2.2.2.2.2.2.1, h.2.2.2.2.2.2.2.2.2.2.2.2.2.2⟩
  refine funext fun a => Fin.ext ?_
  match a with
  | ⟨0, _⟩ => show win0_6.index t (0 : Fin 2) * 512 + 1 * p.val = 512 * t.val + p.val; omega
  | ⟨1, _⟩ => show win0_6.index t (1 : Fin 2) * 1024 + 1 * q.val = q.val; omega

/-! ## What each point writes back, the cover, and the run -/

/-- The result both programs compute, of the six arguments as launched on core `c`. -/
abbrev result (c : Dev nD) : Buf (Elt Ideal) ((c : Thread nD τ).loc main_v3) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Point `t` writes back rows `512 t … 512 t + 511` of `G`. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  rw [View.read_apply, out_emb]
  refine (Body.pay_at (iblk m c 0 t) (iblk m c 2 t) (iblk m c 3 t) (iblk m c 4 t) (iblk m c 5 t) (iblk m c 1 t) p q).trans ?_
  simp only [x_at, y_at, w_at, bias_at, gamma_at, beta_at]
  rfl

/-- An index of the result is in point `t`'s block iff each coordinate is in the block's range on its axis. -/
theorem mem_blk (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v3).slice (win0_6.rect t)).set ↔ _
  rw [View.set_slice_whole, Rect.mem_set_unit]
  exact Iff.rfl

/-- Row `r` of the result lies in the block of point `r / 512`. -/
theorem cover (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  have h := idx_facts t
  obtain ⟨e60, e61⟩ : win0_6.index t (0 : Fin 2) = (i 0).val / 512 ∧ win0_6.index t (1 : Fin 2) = 0 :=
    ⟨h.2.2.2.2.2.2.2.2.2.2.2.2.2.1, h.2.2.2.2.2.2.2.2.2.2.2.2.2.2⟩
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The result array after the run is `G` of the six arguments. -/
theorem final (c : Dev nD) : (dats m 0 c).arrAt 6 cfg0.N = result m c :=
  (dats m 0 c).arrAt_eq_of_cover 6 (result m c) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (run_blocks m ρ)

end Cert.LinearNorm.Blocks

end
-- ==== Proof.RefValue.lean ====
/-
  The reference's result, stage by stage, is the row function of `Spec.lean`: entry `(r, q)` of its last stage is
  `norm` of the linear layer of row `r`. The host's `dot_general` and its two row sums are plain sums at the
  extended reals (the sums start from the zero word, which is `0`), its quotient and reciprocal square root are
  the functions of `Spec.lean`; what is left is to follow each broadcast back to the index it reads.
-/
import proofs.«404553_j32607391711515_3_alg».proof.Proof.Gen.ReferenceIdeal.Read
import proofs.«404553_j32607391711515_3_alg».proof.Proof.Spec

noncomputable section

namespace Cert.LinearNorm.Ref

open Cert.ReferenceIdeal Cert.ReferenceIdeal.Gen Cert.ReferenceIdeal.Read
open Idealize.ShloMosaic Idealize.ShloMosaic.TcCoe Idealize.ShloMosaic.ValueIdx
open Cert.LinearNorm

/-! ## Where each broadcast and each sum reads -/

theorem lidx_v0 (r : Fin 16384) (o k : Fin 1024) : lidx_main_v0 (ix2 r o) k = ix2 r k :=
  funext fun a => by match a with | ⟨0, _⟩ => rfl | ⟨1, _⟩ => rfl
theorem ridx_v0 (r : Fin 16384) (o k : Fin 1024) : ridx_main_v0 (ix2 r o) k = ix2 o k :=
  funext fun a => by match a with | ⟨0, _⟩ => rfl | ⟨1, _⟩ => rfl
theorem idx_v1_v2 (r : Fin 16384) (o : Fin 1024) : idx_main_v1 (idx_main_v2 (ix2 r o)) = ix1 o :=
  funext fun a => by match a with | ⟨0, _⟩ => rfl
theorem idx_v22_v23 (r : Fin 16384) (o : Fin 1024) : idx_main_v22 (idx_main_v23 (ix2 r o)) = ix1 o :=
  funext fun a => by match a with | ⟨0, _⟩ => rfl
theorem idx_v25_v26 (r : Fin 16384) (o : Fin 1024) : idx_main_v25 (idx_main_v26 (ix2 r o)) = ix1 o :=
  funext fun a => by match a with | ⟨0, _⟩ => rfl
theorem idx_v4 (r : Fin 16384) (k : Fin 1024) : idx_main_v4 (ix1 r) k = ix2 r k :=
  funext fun a => by match a with | ⟨0, _⟩ => rfl | ⟨1, _⟩ => rfl
theorem idx_v9 (r : Fin 16384) (k : Fin 1024) : idx_main_v9 (ix1 r) k = ix2 r k :=
  funext fun a => by match a with | ⟨0, _⟩ => rfl | ⟨1, _⟩ => rfl
theorem idx_v5 (r : Fin 16384) (u : Fin 1) : idx_main_v5 (ix2 r u) = ix1 r :=
  funext fun a => by match a with | ⟨0, _⟩ => rfl
theorem idx_v10 (r : Fin 16384) (u : Fin 1) : idx_main_v10 (ix2 r u) = ix1 r :=
  funext fun a => by match a with | ⟨0, _⟩ => rfl
theorem idx_v15 (r : Fin 16384) (q : Fin 1024) : idx_main_v15 (ix2 r q) = ix2 r (⟨0, Nat.one_pos⟩ : Fin 1) :=
  funext fun a => by match a with | ⟨0, _⟩ => rfl | ⟨1, _⟩ => rfl
theorem idx_v20 (r : Fin 16384) (q : Fin 1024) : idx_main_v20 (ix2 r q) = ix2 r (⟨0, Nat.one_pos⟩ : Fin 1) :=
  funext fun a => by match a with | ⟨0, _⟩ => rfl | ⟨1, _⟩ => rfl

/-! ## The stages -/

variable (x0 x1 : FVec Ideal S16384x1024 .f32) (x2 : FVec Ideal S1024x1024 .f32) (x3 x4 x5 : FVec Ideal S1024 .f32)

/-- The linear layer of row `r` of the first argument. -/
abbrev zrow (r : Fin 16384) : Fin 1024 → EReal :=
  lin (fun k => x0 (ix2 r k)) (fun o k => x2 (ix2 o k)) (fun o => x3 (ix1 o))

/-- The matrix product plus the broadcast bias, at `(r, o)`. -/
theorem v3_at (r : Fin 16384) (o : Fin 1024) : val_main_v3 (F := Ideal) x0 x2 x3 (ix2 r o) = zrow x0 x2 x3 r o := by
  rw [val_main_v3_apply, val_main_v0_apply, val_main_v2_apply, val_main_v1_apply, idx_v1_v2]
  simp only [lidx_v0, ridx_v0]
  rfl

/-- The first row sum: the features of row `r` added up. -/
theorem v4_at (r : Fin 16384) : val_main_v4 (F := Ideal) x0 x2 x3 (ix1 r) = ∑ o : Fin 1024, zrow x0 x2 x3 r o := by
  rw [val_main_v4_apply, val_main_cst_apply, Ideal.ofBits_def, Ideal.ofBits_zero_f32, zero_add]
  exact Finset.sum_congr rfl fun k _ => by rw [idx_v4, v3_at]

/-- The row's mean, kept in a column. -/
theorem v7_at (r : Fin 16384) (u : Fin 1) : val_main_v7 (F := Ideal) x0 x2 x3 (ix2 r u) = mean (zrow x0 x2 x3 r) := by
  rw [val_main_v7_apply, val_main_v5_apply, val_main_v6_apply, val_main_cst_0_apply, idx_v5, v4_at]
  rfl

/-- The second row sum: the squares of the features of row `r` added up. -/
theorem v9_at (r : Fin 16384) :
    val_main_v9 (F := Ideal) x0 x2 x3 (ix1 r) = ∑ o : Fin 1024, zrow x0 x2 x3 r o * zrow x0 x2 x3 r o := by
  rw [val_main_v9_apply, val_main_cst_1_apply, Ideal.ofBits_def, Ideal.ofBits_zero_f32, zero_add]
  exact Finset.sum_congr rfl fun k _ => by rw [idx_v9, val_main_v8_apply, v3_at]; rfl

/-- The mean of the row's squares, kept in a column. -/
theorem v12_at (r : Fin 16384) (u : Fin 1) : val_main_v12 (F := Ideal) x0 x2 x3 (ix2 r u) = meanSq (zrow x0 x2 x3 r) := by
  rw [val_main_v12_apply, val_main_v10_apply, val_main_v11_apply, val_main_cst_2_apply, idx_v10, v9_at]
  rfl

/-- The row's reciprocal standard deviation, kept in a column. -/
theorem v19_at (r : Fin 16384) (u : Fin 1) : val_main_v19 (F := Ideal) x0 x2 x3 (ix2 r u) = invStd (zrow x0 x2 x3 r) := by
  rw [val_main_v19_apply, val_main_v18_apply, val_main_v14_apply, val_main_v17_apply, val_main_cst_3_apply,
    val_main_v13_apply, v12_at, v7_at]
  rfl

/-- The last stage at `(r, q)`: row `r` normalised, scaled, shifted, the residual added and multiplied in. -/
theorem v29_at (r : Fin 16384) (q : Fin 1024) :
    val_main_v29 (F := Ideal) x0 x1 x2 x3 x4 x5 (ix2 r q)
      = norm (zrow x0 x2 x3 r) (fun o => x4 (ix1 o)) (fun o => x5 (ix1 o)) (fun o => x1 (ix2 r o)) q := by
  rw [val_main_v29_apply, val_main_v28_apply, val_main_v27_apply, val_main_v24_apply, val_main_v26_apply,
    val_main_v25_apply, val_main_v21_apply, val_main_v23_apply, val_main_v22_apply, val_main_v16_apply,
    val_main_v20_apply, val_main_v15_apply, v3_at, idx_v15, idx_v20, v7_at, v19_at, idx_v22_v23, idx_v25_v26]
  rfl

/-- The reference's last stage is `G` of its six arguments. -/
theorem result_eq : val_main_v29 (F := Ideal) x0 x1 x2 x3 x4 x5 = G x0 x1 x2 x3 x4 x5 := by
  funext i
  obtain ⟨r, q, rfl⟩ : ∃ (r : Fin 16384) (q : Fin 1024), i = ix2 r q := ⟨i 0, i 1, eq_ix2 i⟩
  rw [v29_at]
  rfl

end Cert.LinearNorm.Ref

end
-- ==== Proof.lean ====
/-
  A linear layer, a layer normalisation over its 1024 output features, a residual added and multiplied in:
  the kernel, 512 rows at a grid point, against the same arithmetic written for the whole arrays.

  On the extended reals both compute, for row `r`, `z o = (∑ k, x r k * w o k) + b o`, the mean `μ` of `z`, the mean
  `ν` of its squares, and `((z q - μ) * rsqrt (ν - μ * μ + ε) * g q + β q + y r q) * y r q` (`Spec.lean`). No law
  of arithmetic is needed to join the two sides: the product into a zero accumulator and the host's product are
  the same sum, a lane sum and the host's row sum from zero are the same sum, and the divisor 1024 and `ε` are
  the same words on both sides. `RefValue.lean` reads the reference's stages back to that function, `Body.lean`
  the value the kernel stores, `Blocks.lean` puts the 32 row blocks together; here the five claims.
-/
import proofs.«404553_j32607391711515_3_alg».proof.Defs
import proofs.«404553_j32607391711515_3_alg».proof.Proof.Gen.Kernel
import proofs.«404553_j32607391711515_3_alg».proof.Proof.Gen.Kernel.Frame
import proofs.«404553_j32607391711515_3_alg».proof.Proof.Gen.KernelIdeal
import proofs.«404553_j32607391711515_3_alg».proof.Proof.Gen.KernelIdeal.Frame
import proofs.«404553_j32607391711515_3_alg».proof.Proof.Gen.KernelIdeal.Value
import proofs.«404553_j32607391711515_3_alg».proof.Proof.Gen.ReferenceIdeal
import proofs.«404553_j32607391711515_3_alg».proof.Proof.Gen.ReferenceIdeal.Run
import proofs.«404553_j32607391711515_3_alg».proof.Proof.Gen.ReferenceIdeal.Read
import proofs.«404553_j32607391711515_3_alg».proof.Proof.Gen.Pre_finite_inputs
import proofs.«404553_j32607391711515_3_alg».proof.Proof.Blocks
import proofs.«404553_j32607391711515_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at `G` of them (the 32 row blocks together) and
    the reference's last stage is `G` of them too. -/
theorem algebraic : Cert.algebraic_KernelIdeal_ReferenceIdeal := by
  intro m ρ m' ρ' _ hagree
  refine ⟨fun c => Cert.LinearNorm.Blocks.result m c, Cert.LinearNorm.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v29_eq _ _ _ _ _ _).trans (Cert.LinearNorm.Ref.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
